-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x4096x64 : Shape := ⟨4, ![4, 16, 4096, 64]⟩
abbrev S256x64 : Shape := ⟨2, ![256, 64]⟩
abbrev S256 : Shape := ⟨1, ![256]⟩
abbrev S_ : Shape := ⟨0, ![]⟩

class Facts : Prop where
  bcast_S_S4x16x4096x64 : S_.BroadcastsInDim S4x16x4096x64 (![] : Fin 0 → Fin S4x16x4096x64.rank)
  reducesTo_S4x16x4096x64_S_d0_1_2_3 : S4x16x4096x64.ReducesTo [0, 1, 2, 3] S_
  h_S_ : 0 < S_.numel
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S4x16x4096x64 .f32) (main_arg1 : FVec F S256x64 .f32) (main_arg2 : FVec F S256 .f32) : IVec S_ 1 :=
  let main_v0 : FVec F S4x16x4096x64 .f32 := Host.absf main_arg0
  let main_cst : FVec F S_ .f32 := constant S_ .f32 0x7F800000#32
  let main_v1 : FVec F S4x16x4096x64 .f32 := broadcastInDim S4x16x4096x64 ![] bcast_S_S4x16x4096x64 main_cst
  let main_v2 : IVec S4x16x4096x64 1 := cmpf .olt main_v0 main_v1
  let main_c : IVec S_ 1 := constantI S_ 1 1#1
  let main_v3 : IVec S_ 1 := (fun x v => Host.reduce IntOp.andi x v reducesTo_S4x16x4096x64_S_d0_1_2_3 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S4x16x4096x64 : Shape := ⟨4, ![4, 16, 4096, 64]⟩
abbrev S256x64 : Shape := ⟨2, ![256, 64]⟩
abbrev S256 : Shape := ⟨1, ![256]⟩
abbrev S262144x64 : Shape := ⟨2, ![262144, 64]⟩
abbrev S1x256 : Shape := ⟨2, ![1, 256]⟩
abbrev S262144x256 : Shape := ⟨2, ![262144, 256]⟩
abbrev S4096x64 : Shape := ⟨2, ![4096, 64]⟩
abbrev S4096x256 : Shape := ⟨2, ![4096, 256]⟩
abbrev S64x256 : Shape := ⟨2, ![64, 256]⟩
abbrev S4x16x4096x256 : Shape := ⟨4, ![4, 16, 4096, 256]⟩

abbrev nBuf : Space → Nat
  | .hbm => 7
  | .vmem => 6
  | .smem => 0
  | _ => 0

abbrev bufTy : (tb : Table) → Fin (tcTables nBuf tb) → BufTy
  | .hbm, ⟨0, _⟩ => ⟨S4x16x4096x64, .f32⟩
  | .hbm, ⟨1, _⟩ => ⟨S256x64, .f32⟩
  | .hbm, ⟨2, _⟩ => ⟨S256, .f32⟩
  | .hbm, ⟨3, _⟩ => ⟨S262144x64, .f32⟩
  | .hbm, ⟨4, _⟩ => ⟨S1x256, .f32⟩
  | .hbm, ⟨5, _⟩ => ⟨S262144x256, .f32⟩
  | .hbm, ⟨6, _⟩ => ⟨S4x16x4096x256, .f32⟩
  | .local _ .vmem, ⟨0, _⟩ => ⟨S4096x64, .f32⟩
  | .local _ .vmem, ⟨1, _⟩ => ⟨S4096x64, .f32⟩
  | .local _ .vmem, ⟨2, _⟩ => ⟨S256x64, .f32⟩
  | .local _ .vmem, ⟨3, _⟩ => ⟨S1x256, .f32⟩
  | .local _ .vmem, ⟨4, _⟩ => ⟨S4096x256, .f32⟩
  | .local _ .vmem, ⟨5, _⟩ => ⟨S4096x256, .f32⟩
  | _, _ => ⟨S4x16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x16x4096x64_S262144x64 : S4x16x4096x64.ShapeCasts S262144x64
  shapeCasts_S256_S1x256 : S256.ShapeCasts S1x256
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  transposes_S256x64_p1_0_S64x256 : S256x64.Transposes [1, 0] S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  shapeCasts_S262144x256_S4x16x4096x256 : S262144x256.ShapeCasts S4x16x4096x256
  dot_S4096x64_S64x256_S4096x256_1_0_0_1_n_n_wf : DotDims.WF S4096x64 S64x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S262144x64.size a
  hwx0_0 : ∀ i : grid0.Coords, EltTy.bits .f32 = 32 ∨ (Rect.block (s := S262144x64) S4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S262144x256.size a
  hwx0_3 : ∀ i : grid0.Coords, EltTy.bits .f32 = 32 ∨ (Rect.block (s := S262144x256) S4096x256.size (cc0_transform_3 i) (hinb0_3 i)).WholeWords (EltTy.packing .f32)

variable [Facts₀]

def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf

abbrev win0_0 : Pipeline.Window sig grid0 :=
  Pipeline.Window.ofSpec (Memref.whole main_v0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4096x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x16x4096x64 : Shape := ⟨4, ![4, 16, 4096, 64]⟩
abbrev S256x64 : Shape := ⟨2, ![256, 64]⟩
abbrev S256 : Shape := ⟨1, ![256]⟩
abbrev S4x16x4096x256 : Shape := ⟨4, ![4, 16, 4096, 256]⟩
abbrev S1x1x1x256 : Shape := ⟨4, ![1, 1, 1, 256]⟩

abbrev nBuf : Space → Nat
  | .hbm => 8
  | .vmem => 0
  | .smem => 0
  | _ => 0

abbrev bufTy : (tb : Table) → Fin (tcTables nBuf tb) → BufTy
  | .hbm, ⟨0, _⟩ => ⟨S4x16x4096x64, .f32⟩
  | .hbm, ⟨1, _⟩ => ⟨S256x64, .f32⟩
  | .hbm, ⟨2, _⟩ => ⟨S256, .f32⟩
  | .hbm, ⟨3, _⟩ => ⟨S4x16x4096x256, .f32⟩
  | .hbm, ⟨4, _⟩ => ⟨S1x1x1x256, .f32⟩
  | .hbm, ⟨5, _⟩ => ⟨S4x16x4096x256, .f32⟩
  | .hbm, ⟨6, _⟩ => ⟨S4x16x4096x256, .f32⟩
  | .hbm, ⟨7, _⟩ => ⟨S4x16x4096x256, .f32⟩
  | _, _ => ⟨S4x16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S256_S1x1x1x256_3 : S256.BroadcastsInDim S1x1x1x256 (![3] : Fin 1 → Fin S1x1x1x256.rank)
  bcast_S1x1x1x256_S4x16x4096x256_0_1_2_3 : S1x1x1x256.BroadcastsInDim S4x16x4096x256 (![0, 1, 2, 3] : Fin 4 → Fin S4x16x4096x256.rank)
  dot_S4x16x4096x64_S256x64_S4x16x4096x256_3_1_012_0_n_n_wf : DotDims.WF S4x16x4096x64 S256x64 S4x16x4096x256 [3] [1] [0, 1, 2] [0] [] []

variable [Facts₀]

def dot_S4x16x4096x64_S256x64_S4x16x4096x256_3_1_012_0_n_n : DotDims S4x16x4096x64 S256x64 S4x16x4096x256 where
  lhsContracting := [3]
  rhsContracting := [1]
  lhsNonContracting := [0, 1, 2]
  rhsNonContracting := [0]
  lhsBatch := []
  rhsBatch := []
  wf := dot_S4x16x4096x64_S256x64_S4x16x4096x256_3_1_012_0_n_n_wf

class Facts : Prop extends Facts₀ where

variable [Facts]
-- ==== Proof.FeatureSpec.lean ====
/-
  The cosine random-feature map as one function of its three arrays.

  For x : [4, 16, 4096, 64], w : [256, 64] and a bias b : [256] the map sends the position (b, h, s) and the feature f to
      cos (∑ d, x[b, h, s, d] · w[f, d] + bias[f]),
  an extended real: the sum of 64 products, the bias added, the cosine of the sum.

  The same map on the flattened arrays: with the 4·16·4096 = 262144 positions laid out as the rows of a matrix
  X : [262144, 64] (row (b·16 + h)·4096 + s), and the bias as one row B : [1, 256], the entry (r, f) is
      cos (∑ d, X[r, d] · w[f, d] + B[0, f]).
  Flattening x, computing by rows and unflattening the result is the map on the four-axis arrays (`feat_of_rows`): a reshape
  keeps the row-major position, and the row-major position of (b, h, s, d) is that of (row, d).
-/
import Idealize.ShloMosaic.PureOps.Ideal
import Idealize.ShloMosaic.Lib.ValueIdx
import Idealize.ShloMosaic.Lib.ValueLayout
import Idealize.ShloMosaic.Lib.Pipeline.Value

noncomputable section

open scoped BigOperators

namespace Cert.FeatureMap

open Idealize.ShloMosaic Idealize.ShloMosaic.ValueIdx

abbrev SX4 : Shape := ⟨4, ![4, 16, 4096, 64]⟩
abbrev SW : Shape := ⟨2, ![256, 64]⟩
abbrev SB : Shape := ⟨1, ![256]⟩
abbrev SO4 : Shape := ⟨4, ![4, 16, 4096, 256]⟩
abbrev SX2 : Shape := ⟨2, ![262144, 64]⟩
abbrev SB2 : Shape := ⟨2, ![1, 256]⟩
abbrev SO2 : Shape := ⟨2, ![262144, 256]⟩

/-- The feature map on the four-axis arrays: at (b, h, s, f) the cosine of `∑ d, x[b,h,s,d] · w[f,d] + bias[f]`. -/
def feat (x : FVec Ideal SX4 .f32) (w : FVec Ideal SW .f32) (b : FVec Ideal SB .f32) : FVec Ideal SO4 .f32 :=
  fun i => Ideal.cos (∑ k : Fin 64, x (ix4 (i 0) (i 1) (i 2) k) * w (ix2 (i 3) k) + b (ix1 (i 3)))

/-- The feature map by rows: at (r, f) the cosine of `∑ d, X[r,d] · w[f,d] + B[0,f]`. -/
def featRows (X : FVec Ideal SX2 .f32) (w : FVec Ideal SW .f32) (B : FVec Ideal SB2 .f32) : FVec Ideal SO2 .f32 :=
  fun j => Ideal.cos (∑ k : Fin 64, X (ix2 (j 0) k) * w (ix2 (j 1) k) + B (ix2 (0 : Fin 1) (j 1)))

/-- Row `(b·16 + h)·4096 + s` of the flattened x, at column d, is x[b, h, s, d]. -/
theorem rows_x (x : FVec Ideal SX4 .f32) (hx : SX4.ShapeCasts SX2) (i0 : Fin 4) (i1 : Fin 16) (i2 : Fin 4096) (k : Fin 64)
    (r : Fin 262144) (hr : r.val = (i0.val * 16 + i1.val) * 4096 + i2.val) :
    shapeCast SX2 x hx (ix2 r k) = x (ix4 i0 i1 i2 k) :=
  shapeCast_apply x hx _ _ (by
    rw [Shape.rowMajor_val_two, Shape.rowMajor_val_four]
    show ((i0.val * 16 + i1.val) * 4096 + i2.val) * 64 + k.val = r.val * 64 + k.val
    rw [hr])

/-- The bias as one row: B[0, f] = bias[f]. -/
theorem row_b (b : FVec Ideal SB .f32) (hb : SB.ShapeCasts SB2) (f : Fin 256) :
    shapeCast SB2 b hb (ix2 (0 : Fin 1) f) = b (ix1 f) :=
  shapeCast_a_1a_apply b hb 0 f

/-- Flatten, compute by rows, unflatten: the feature map on the four-axis arrays. -/
theorem feat_of_rows (x : FVec Ideal SX4 .f32) (w : FVec Ideal SW .f32) (b : FVec Ideal SB .f32)
    (hx : SX4.ShapeCasts SX2) (hb : SB.ShapeCasts SB2) (ho : SO2.ShapeCasts SO4) :
    shapeCast SO4 (featRows (shapeCast SX2 x hx) w (shapeCast SB2 b hb)) ho = feat x w b := by
  funext i
  obtain ⟨i0, i1, i2, i3, rfl⟩ : ∃ (i0 : Fin 4) (i1 : Fin 16) (i2 : Fin 4096) (i3 : Fin 256), i = ix4 i0 i1 i2 i3 :=
    ⟨i 0, i 1, i 2, i 3, eq_ix4 i⟩
  have hr : (i0.val * 16 + i1.val) * 4096 + i2.val < 262144 := by
    have := i0.isLt; have := i1.isLt; have := i2.isLt; omega
  rw [shapeCast_apply _ ho (ix4 i0 i1 i2 i3) (ix2 (⟨(i0.val * 16 + i1.val) * 4096 + i2.val, hr⟩ : Fin 262144) i3) (by
    rw [Shape.rowMajor_val_two, Shape.rowMajor_val_four]
    rfl)]
  show Ideal.cos (∑ k : Fin 64, shapeCast SX2 x hx (ix2 (⟨(i0.val * 16 + i1.val) * 4096 + i2.val, hr⟩ : Fin 262144) k) * w (ix2 i3 k)
      + shapeCast SB2 b hb (ix2 (0 : Fin 1) i3))
    = Ideal.cos (∑ k : Fin 64, x (ix4 i0 i1 i2 k) * w (ix2 i3 k) + b (ix1 i3))
  rw [row_b]
  congr 2
  exact Finset.sum_congr rfl fun k _ => by rw [rows_x x hx i0 i1 i2 k _ rfl]

end Cert.FeatureMap

end
-- ==== Proof.FeatureRef.lean ====
/-
  The reference computes the feature map.

  The reference contracts x's last axis with w's last axis (a sum of 64 products at every (b, h, s, f)), adds the bias
  broadcast along the feature axis, and takes the cosine. Read at an index (b, h, s, f), stage by stage, that is
      cos (∑ d, x[b, h, s, d] · w[f, d] + bias[f]).
-/
import proofs.«174743_j72335839200093_1_alg».proof.Proof.Gen.ReferenceIdeal.Read
import proofs.«174743_j72335839200093_1_alg».proof.Proof.FeatureSpec

noncomputable section

open scoped BigOperators

namespace Cert.ReferenceIdeal.RefValue

open Cert.ReferenceIdeal Cert.ReferenceIdeal.Read Idealize.ShloMosaic Idealize.ShloMosaic.ValueIdx Cert.FeatureMap

/-- The reference's last stage is the feature map of its three arguments. -/
theorem ref_is_feat (x0 : (⟨S4x16x4096x64, .f32⟩ : BufTy).Contents (Elt Ideal)) (x1 : (⟨S256x64, .f32⟩ : BufTy).Contents (Elt Ideal))
    (x2 : (⟨S256, .f32⟩ : BufTy).Contents (Elt Ideal)) :
    val_main_v4 (F := Ideal) x0 x1 x2 = feat x0 x1 x2 := by
  funext i
  have hl : ∀ k : Fin 64, lidx_main_v0 i k = ix4 (i 0) (i 1) (i 2) k := fun k => funext fun a => Fin.ext (by
    match a with
    | ⟨0, _⟩ => rfl
    | ⟨1, _⟩ => rfl
    | ⟨2, _⟩ => rfl
    | ⟨3, _⟩ => rfl)
  have hr : ∀ k : Fin 64, ridx_main_v0 i k = ix2 (i 3) k := fun k => funext fun a => Fin.ext (by
    match a with
    | ⟨0, _⟩ => rfl
    | ⟨1, _⟩ => rfl)
  have hb : idx_main_v1 (idx_main_v2 i) = ix1 (i 3) := funext fun a => Fin.ext (by
    match a with
    | ⟨0, _⟩ => rfl)
  rw [val_main_v4_apply, val_main_v3_apply, val_main_v0_apply, val_main_v2_apply, val_main_v1_apply]
  simp only [hl, hr, hb]
  rfl

end Cert.ReferenceIdeal.RefValue

end
-- ==== Proof.FeatureBody.lean ====
/-
  What the kernel body computes, entry by entry.

  One call of the body holds a block of 4096 rows of the flattened x (4096 × 64), the whole of w (256 × 64) and the bias row
  (1 × 256). It multiplies the rows by w transposed into a zero accumulator, adds the bias row to every row and takes the
  cosine. At the extended reals a change of float format is the identity, a matrix product into zero is the plain sum of
  products over the contracted axis, the transposed w at (d, f) is w at (f, d), and a one-row array broadcast down the rows
  reads its only row. So the entry (p, f) of what the body stores is
      cos (∑ d, rows[p, d] · w[f, d] + bias[0, f]).
-/
import proofs.«174743_j72335839200093_1_alg».proof.Proof.Gen.KernelIdeal.Skeleton
import proofs.«174743_j72335839200093_1_alg».proof.Proof.FeatureSpec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Body

open Cert.KernelIdeal Cert.KernelIdeal.Gen Idealize.ShloMosaic Idealize.ShloMosaic.ValueIdx Cert.FeatureMap

/-! ## The product's operand indices: output (p, f), contraction index d ↦ left (p, d), right (d, f) -/

theorem lhs_row (i : S4096x256.Idx) (q : dot_S4096x64_S64x256_S4096x256_1_0_0_1_n_n.contr.Idx) :
    (dot_S4096x64_S64x256_S4096x256_1_0_0_1_n_n.lhsIdx i q 0).val = (i 0).val := by
  unfold DotDims.lhsIdx
  rw [dif_neg (show ¬(0 : Fin S4096x64.rank) ∈ dot_S4096x64_S64x256_S4096x256_1_0_0_1_n_n.lhsBatch by decide), dif_pos (show (0 : Fin S4096x64.rank) ∈ dot_S4096x64_S64x256_S4096x256_1_0_0_1_n_n.lhsNonContracting by decide)]
  rfl
theorem lhs_col (i : S4096x256.Idx) (q : dot_S4096x64_S64x256_S4096x256_1_0_0_1_n_n.contr.Idx) :
    (dot_S4096x64_S64x256_S4096x256_1_0_0_1_n_n.lhsIdx i q 1).val = (q ⟨0, by decide⟩).val :=
  dot_S4096x64_S64x256_S4096x256_1_0_0_1_n_n.lhsIdx_val_of_single rfl i q
theorem rhs_row (i : S4096x256.Idx) (q : dot_S4096x64_S64x256_S4096x256_1_0_0_1_n_n.contr.Idx) :
    (dot_S4096x64_S64x256_S4096x256_1_0_0_1_n_n.rhsIdx i q 0).val = (q ⟨0, by decide⟩).val :=
  dot_S4096x64_S64x256_S4096x256_1_0_0_1_n_n.rhsIdx_val_of_single rfl i q
theorem rhs_col (i : S4096x256.Idx) (q : dot_S4096x64_S64x256_S4096x256_1_0_0_1_n_n.contr.Idx) :
    (dot_S4096x64_S64x256_S4096x256_1_0_0_1_n_n.rhsIdx i q 1).val = (i 1).val := by
  unfold DotDims.rhsIdx
  rw [dif_neg (show ¬(1 : Fin S64x256.rank) ∈ dot_S4096x64_S64x256_S4096x256_1_0_0_1_n_n.rhsBatch by decide), dif_pos (show (1 : Fin S64x256.rank) ∈ dot_S4096x64_S64x256_S4096x256_1_0_0_1_n_n.rhsNonContracting by decide)]
  rfl

/-- The product into the zero accumulator, at (p, f): the sum over d of left (p, d) times right (d, f). -/
theorem product_apply (a : FVec Ideal S4096x64 .bf16) (bt : FVec Ideal S64x256 .bf16) (p : Fin 4096) (f : Fin 256) :
    matmul (F := Ideal) dot_S4096x64_S64x256_S4096x256_1_0_0_1_n_n none a bt (constant S4096x256 .f32 0x00000000#32) (ix2 p f)
      = ∑ k : Fin 64, a (ix2 p k) * bt (ix2 k f) := by
  simp only [matmul]
  rw [Ideal.matmul_constant_zero_apply, ← Equiv.sum_comp (ValueIdx.contrEquiv1 dot_S4096x64_S64x256_S4096x256_1_0_0_1_n_n 64 rfl rfl).symm]
  refine Finset.sum_congr rfl fun k _ => ?_
  have hk := ValueIdx.contrEquiv1_symm_val dot_S4096x64_S64x256_S4096x256_1_0_0_1_n_n 64 rfl rfl k
  have el : dot_S4096x64_S64x256_S4096x256_1_0_0_1_n_n.lhsIdx (ix2 p f) ((ValueIdx.contrEquiv1 dot_S4096x64_S64x256_S4096x256_1_0_0_1_n_n 64 rfl rfl).symm k) = ix2 p k := funext fun ax => Fin.ext (by
    match ax with
    | ⟨0, _⟩ => exact lhs_row _ _
    | ⟨1, _⟩ => exact (lhs_col _ _).trans hk)
  have er : dot_S4096x64_S64x256_S4096x256_1_0_0_1_n_n.rhsIdx (ix2 p f) ((ValueIdx.contrEquiv1 dot_S4096x64_S64x256_S4096x256_1_0_0_1_n_n 64 rfl rfl).symm k) = ix2 k f := funext fun ax => Fin.ext (by
    match ax with
    | ⟨0, _⟩ => exact (rhs_row _ _).trans hk
    | ⟨1, _⟩ => exact rhs_col _ _)
  rw [el, er]

/-- THE BODY'S STORE at (p, f): the cosine of the row's products with w's row f, summed, plus the bias at f. -/
theorem pay_apply (x0 : Vec Ideal S4096x64 .f32) (x1 : Vec Ideal S256x64 .f32) (x2 : Vec Ideal S1x256 .f32) (p : Fin 4096) (f : Fin 256) :
    k0_pay1 (F := Ideal) x0 x1 x2 (ix2 p f)
      = Ideal.cos (∑ k : Fin 64, x0 (ix2 p k) * x1 (ix2 f k) + x2 (ix2 (0 : Fin 1) f)) := by
  unfold k0_pay1
  show Ideal.cos (matmul (F := Ideal) dot_S4096x64_S64x256_S4096x256_1_0_0_1_n_n none _ _ (constant S4096x256 .f32 0x00000000#32) (ix2 p f)
      + broadcastTo S4096x256 (shapeCast S1x256 x2 shapeCasts_S1x256_S1x256) broadcasts_S1x256_S4096x256 (ix2 p f)) = _
  rw [product_apply, broadcastTo_1b_ab_apply, shapeCast_self, shapeCast_self]
  have ht : ∀ k : Fin 64, transpose S64x256 [1, 0] (truncf (F := Ideal) .bf16 x1 bitsLt_bf16_f32) transposes_S256x64_p1_0_S64x256 (ix2 k f)
      = truncf (F := Ideal) .bf16 x1 bitsLt_bf16_f32 (ix2 f k) :=
    fun k => transpose_ix2_apply (truncf (F := Ideal) .bf16 x1 bitsLt_bf16_f32) transposes_S256x64_p1_0_S64x256 k f
  simp only [ht]
  rfl

/-- THE BODY'S STORE AS ROWS OF THE FEATURE MAP: when the block of rows is rows `T·4096 …` of `X` and the other two blocks are
    `W` and `B`, the entry (p, f) of the store is the by-rows feature map at (T·4096 + p, f). -/
theorem entry_of_block (x0 : Vec Ideal S4096x64 .f32) (x1 : Vec Ideal S256x64 .f32) (x2 : Vec Ideal S1x256 .f32)
    (X : FVec Ideal SX2 .f32) (W : FVec Ideal SW .f32) (B : FVec Ideal SB2 .f32) (T : Nat)
    (h0 : ∀ (p : Fin 4096) (k : Fin 64) (r : Fin 262144), r.val = T * 4096 + p.val → x0 (ix2 p k) = X (ix2 r k))
    (h1 : ∀ (f : Fin 256) (k : Fin 64), x1 (ix2 f k) = W (ix2 f k))
    (h2 : ∀ f : Fin 256, x2 (ix2 (0 : Fin 1) f) = B (ix2 (0 : Fin 1) f))
    (y : S4096x256.Idx) (i : SO2.Idx) (hi0 : (i 0).val = T * 4096 + (y 0).val) (hi1 : (i 1).val = (y 1).val) :
    k0_pay1 (F := Ideal) x0 x1 x2 y = featRows X W B i := by
  obtain ⟨p, f, rfl⟩ : ∃ (p : Fin 4096) (f : Fin 256), y = ix2 p f := ⟨y 0, y 1, eq_ix2 y⟩
  rw [pay_apply]
  unfold featRows
  have e1 : i 1 = f := Fin.ext hi1
  rw [e1, h2 f]
  congr 2
  exact Finset.sum_congr rfl fun k _ => by rw [h0 p k (i 0) hi0, h1 f k]

end Cert.KernelIdeal.Body

end
-- ==== Proof.FeatureBlocks.lean ====
/-
  From the 64 blocks to the whole array.

  The kernel's grid has 64 points. Point t is given rows 4096·t … 4096·t + 4095 of the flattened x, the whole of w and the
  bias row, and writes back rows 4096·t … 4096·t + 4095 of the result. By the body's entry formula, what point t writes back is
  exactly those rows of the by-rows feature map of the three arrays as the region finds them; row r lies in the block of
  point r / 4096, so the 64 blocks cover the result, and the result array ends holding the by-rows feature map.
-/
import proofs.«174743_j72335839200093_1_alg».proof.Proof.Gen.KernelIdeal.Frame
import proofs.«174743_j72335839200093_1_alg».proof.Proof.FeatureBody
import Idealize.ShloMosaic.Lib.Pipeline.Value
import Idealize.ShloMosaic.Lib.Tactic

set_option maxRecDepth 16384

noncomputable section

open scoped BigOperators

namespace Cert.KernelIdeal.Blocks

open Cert.KernelIdeal Cert.KernelIdeal.Gen Cert.KernelIdeal.Body Cert.FeatureMap
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The block indices at point t: the row block t for x and for the result, block (0, 0) for w and the bias. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The x block at point t: entry (p, d) is row 4096·t + p of the flattened x at d. -/
theorem rows_block (c : Dev nD) (t : Fin cfg0.N) (p : Fin 4096) (k : Fin 64) (r : Fin 262144) (hr : r.val = t.val * 4096 + p.val) :
    (iblk m c 0 t : Vec Ideal S4096x64 .f32) (ix2 p k) = (V m c main_v0 : S262144x64.Idx → Elt Ideal .f32) (ix2 r k) := by
  obtain ⟨e00, e01, -⟩ := idx_facts t
  unfold iblk
  rw [View.read_apply]
  show V m c main_v0 _ = V m c main_v0 _
  congr 1
  funext a
  apply Fin.ext
  match a with
  | ⟨0, _⟩ => show win0_0.index t (0 : Fin 2) * 4096 + 1 * p.val = r.val; rw [e00, hr]; omega
  | ⟨1, _⟩ => show win0_0.index t (1 : Fin 2) * 64 + 1 * k.val = k.val; rw [e01]; omega

/-- The w block at every point is w. -/
theorem w_block (c : Dev nD) (t : Fin cfg0.N) (f : Fin 256) (k : Fin 64) :
    (iblk m c 1 t : Vec Ideal S256x64 .f32) (ix2 f k) = (V m c main_arg1 : S256x64.Idx → Elt Ideal .f32) (ix2 f k) := by
  obtain ⟨-, -, e10, e11, -⟩ := idx_facts t
  unfold iblk
  rw [View.read_apply]
  show V m c main_arg1 _ = V m c main_arg1 _
  congr 1
  funext a
  apply Fin.ext
  match a with
  | ⟨0, _⟩ => show win0_1.index t (0 : Fin 2) * 256 + 1 * f.val = f.val; rw [e10]; omega
  | ⟨1, _⟩ => show win0_1.index t (1 : Fin 2) * 64 + 1 * k.val = k.val; rw [e11]; omega

/-- The bias block at every point is the bias row. -/
theorem b_block (c : Dev nD) (t : Fin cfg0.N) (f : Fin 256) :
    (iblk m c 2 t : Vec Ideal S1x256 .f32) (ix2 (0 : Fin 1) f) = (V m c main_v1 : S1x256.Idx → Elt Ideal .f32) (ix2 (0 : Fin 1) f) := by
  obtain ⟨-, -, -, -, e20, e21, -⟩ := idx_facts t
  unfold iblk
  rw [View.read_apply]
  show V m c main_v1 _ = V m c main_v1 _
  congr 1
  funext a
  apply Fin.ext
  match a with
  | ⟨0, _⟩ => show win0_2.index t (0 : Fin 2) * 1 + 1 * 0 = 0; rw [e20]
  | ⟨1, _⟩ => show win0_2.index t (1 : Fin 2) * 256 + 1 * f.val = f.val; rw [e21]; omega

/-- WHAT POINT t WRITES BACK: rows 4096·t … of the by-rows feature map of the arrays as the region finds them. -/
theorem flushed_eq (c : Dev nD) (t : Fin cfg0.N) :
    (dats m 0 c).flushed 3 t
      = ((cfg0.win 3).blk t).view.read (Elt Ideal) (featRows (V m c main_v0) (V m c main_arg1) (V m c main_v1)) := by
  show (cfg0.win 3).cut (grid0.coords t) ((dats m 0 c).after 3 t) = _
  rw [after0_3]
  unfold out0_3
  rw [View.canon_unit_zero hz]
  simp only [View.ld_unit_zero (S := S4096x64) hz, View.ld_unit_zero (S := S256x64) hz, View.ld_unit_zero (S := S1x256) hz]
  obtain ⟨-, -, -, -, -, -, e30, e31⟩ := idx_facts t
  funext j
  rw [View.read_apply]
  refine entry_of_block (iblk m c 0 t) (iblk m c 1 t) (iblk m c 2 t) (V m c main_v0) (V m c main_arg1) (V m c main_v1) t.val
    (fun p k r hr => rows_block m c t p k r hr) (fun f k => w_block m c t f k) (fun f => b_block m c t f) _ _ ?_ ?_
  · show win0_3.index t (0 : Fin 2) * 4096 + 1 * (j 0).val = t.val * 4096 + (j 0).val
    rw [e30]; omega
  · show win0_3.index t (1 : Fin 2) * 256 + 1 * (j 1).val = (j 1).val
    rw [e31]; omega

/-- An index of the result is in point t's block iff each coordinate is in the block's range on its axis. -/
theorem mem_blk (t : Fin cfg0.N) (i : S262144x256.Idx) :
    i ∈ ((cfg0.win 3).blk t).view.set ↔ ∀ a : Fin 2, win0_3.index t a * S4096x256.size a ≤ (i a).val ∧ (i a).val < win0_3.index t a * S4096x256.size a + S4096x256.size a := by
  show i ∈ ((View.whole main_v2).slice (win0_3.rect t)).set ↔ _
  rw [View.set_slice_whole, Rect.mem_set_unit]
  exact Iff.rfl

/-- Row r of the result is in the block of point r / 4096. -/
theorem cover (i : S262144x256.Idx) : ∃ t : Fin cfg0.N, (cfg0.win 3).flush t = true ∧ i ∈ ((cfg0.win 3).blk t).view.set := by
  have hi0 : (i 0).val < 262144 := (i 0).isLt
  have hi1 : (i 1).val < 256 := (i 1).isLt
  have hlt : (i 0).val / 4096 < cfg0.N := Nat.lt_of_lt_of_eq (by omega : (i 0).val / 4096 < 64) N_0.symm
  obtain ⟨-, -, -, -, -, -, e30, e31⟩ := idx_facts ⟨(i 0).val / 4096, hlt⟩
  refine ⟨⟨(i 0).val / 4096, hlt⟩, flush0_3 _, ?_⟩
  rw [mem_blk]
  intro a
  match a with
  | ⟨0, _⟩ =>
    show win0_3.index ⟨(i 0).val / 4096, hlt⟩ (0 : Fin 2) * 4096 ≤ (i 0).val ∧ (i 0).val < win0_3.index ⟨(i 0).val / 4096, hlt⟩ (0 : Fin 2) * 4096 + 4096
    rw [e30]; show (i 0).val / 4096 * 4096 ≤ (i 0).val ∧ (i 0).val < (i 0).val / 4096 * 4096 + 4096; omega
  | ⟨1, _⟩ =>
    show win0_3.index ⟨(i 0).val / 4096, hlt⟩ (1 : Fin 2) * 256 ≤ (i 1).val ∧ (i 1).val < win0_3.index ⟨(i 0).val / 4096, hlt⟩ (1 : Fin 2) * 256 + 256
    rw [e31]; omega

/-- THE RESULT ARRAY after the region: the by-rows feature map of the arrays as the region finds them. -/
theorem final (c : Dev nD) :
    (dats m 0 c).arrAt 3 cfg0.N = featRows (V m c main_v0) (V m c main_arg1) (V m c main_v1) :=
  (dats m 0 c).arrAt_eq_of_cover 3 _ (fun t _ => flushed_eq m c t) (cover)

end Cert.KernelIdeal.Blocks

end
-- ==== Proof.FeatureHost.lean ====
/-
  The whole program around the kernel: flatten, run the 64 blocks, unflatten.

  Before the kernel region the program reshapes x : [4, 16, 4096, 64] to [262144, 64] and the bias : [256] to [1, 256];
  after it, it reshapes the region's result : [262144, 256] to [4, 16, 4096, 256]. The region leaves the by-rows feature map of
  the reshaped arrays (the blocks' cover), so the program's result is that map unflattened, which is the feature map of the
  three arguments on their own axes (a reshape keeps the row-major position). The arguments end as they were launched.
-/
import proofs.«174743_j72335839200093_1_alg».proof.Proof.Gen.KernelIdeal.Frame
import proofs.«174743_j72335839200093_1_alg».proof.Proof.FeatureBlocks
import Idealize.ShloMosaic.Lib.StableHlo.Run
import Idealize.ShloMosaic.Lib.Pipeline.Value

noncomputable section

namespace Cert.KernelIdeal.Host

open Cert.KernelIdeal Cert.KernelIdeal.Gen Cert.FeatureMap
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The region finds the flattened x: the first argument reshaped to 262144 rows. -/
theorem rows_entry (c : Dev nD) : (V m c main_v0 : S262144x64.Idx → Elt Ideal .f32)
    = shapeCast S262144x64 (m ((c : Thread nD τ).loc main_arg0)) shapeCasts_S4x16x4096x64_S262144x64 := by
  show StableHlo.after hostOps0 (fun b => m (c, b)) (Proc.devRef .tc main_v0) = _
  after_results
  rfl

/-- The region finds the bias as one row: the third argument reshaped to [1, 256]. -/
theorem bias_entry (c : Dev nD) : (V m c main_v1 : S1x256.Idx → Elt Ideal .f32)
    = shapeCast S1x256 (m ((c : Thread nD τ).loc main_arg2)) shapeCasts_S256_S1x256 := by
  show StableHlo.after hostOps0 (fun b => m (c, b)) (Proc.devRef .tc main_v1) = _
  after_results
  rfl

/-- The program's result is the region's result array reshaped to four axes. -/
theorem tail_result (c : Dev nD) :
    Pipeline.afterTail₀ cfgs (dats m) 0 (V0 m) [hostOps1] c main_v3
      = shapeCast S4x16x4096x256 ((dats m 0 c).arrAt 3 cfg0.N) shapeCasts_S262144x256_S4x16x4096x256 := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v2)
      = (dats m 0 c).arrAt 3 cfg0.N :=
    Pipeline.withArrays_arr spec0 launch0.win.arr_inj c _ _ 3
  rw [hw]
  rfl

/-- THE PROGRAM'S RESULT: the feature map of the three arguments. -/
theorem result_eq (c : Dev nD) :
    Pipeline.afterTail₀ cfgs (dats m) 0 (V0 m) [hostOps1] c main_v3
      = feat (m ((c : Thread nD τ).loc main_arg0)) (m ((c : Thread nD τ).loc main_arg1)) (m ((c : Thread nD τ).loc main_arg2)) := by
  rw [tail_result, Blocks.final, rows_entry, bias_entry, V_main_arg1]
  exact feat_of_rows _ _ _ _ _ _

/-- THE RUN, READ: every weakly fair execution ends with the result at the feature map of the arguments, the arguments as
    launched. -/
theorem run : θ_run defs (onTc (τ := τ) (main (F := Ideal))) ⟨m, fun _ => 0, ρ⟩ fun r => ∀ c : Dev nD,
      r.2.mem ((c : Thread nD τ).loc main_v3)
        = feat (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Host

end
-- ==== Proof.lean ====
/-
  The cosine random-feature map: the kernel against the reference, over the extended reals.

  Both programs compute, at every position (b, h, s) and feature f,
      cos (∑ d, x[b, h, s, d] · w[f, d] + bias[f]).
  The reference does it with one contraction over the last axes, a broadcast of the bias and a cosine. The kernel flattens the
  positions to 262144 rows, gives each of its 64 grid points 4096 rows together with the whole of w and the bias row, forms
  the rows' products with w transposed into a zero accumulator (after a change of float format that is the identity on the
  extended reals), adds the bias row and takes the cosine; then it unflattens. The two results are the same function of the
  arguments (`Cert.FeatureMap.feat`): a product into zero is the plain sum, the transposed w at (d, f) is w at (f, d), the 64
  blocks of rows cover the result, and a reshape keeps the row-major position. No law of the proof needs the inputs finite.

  The three frames come from the programs' runs; the idealization rewrote nothing, so `preserves` has nothing to state.
-/
import proofs.«174743_j72335839200093_1_alg».proof.Defs
import proofs.«174743_j72335839200093_1_alg».proof.Proof.Gen.Kernel
import proofs.«174743_j72335839200093_1_alg».proof.Proof.Gen.Kernel.Skeleton
import proofs.«174743_j72335839200093_1_alg».proof.Proof.Gen.Kernel.Launch
import proofs.«174743_j72335839200093_1_alg».proof.Proof.Gen.Kernel.Points
import proofs.«174743_j72335839200093_1_alg».proof.Proof.Gen.Kernel.Frame
import proofs.«174743_j72335839200093_1_alg».proof.Proof.Gen.KernelIdeal
import proofs.«174743_j72335839200093_1_alg».proof.Proof.Gen.KernelIdeal.Skeleton
import proofs.«174743_j72335839200093_1_alg».proof.Proof.Gen.KernelIdeal.Launch
import proofs.«174743_j72335839200093_1_alg».proof.Proof.Gen.KernelIdeal.Points
import proofs.«174743_j72335839200093_1_alg».proof.Proof.Gen.KernelIdeal.Frame
import proofs.«174743_j72335839200093_1_alg».proof.Proof.Gen.ReferenceIdeal
import proofs.«174743_j72335839200093_1_alg».proof.Proof.Gen.Pre_finite_inputs
import proofs.«174743_j72335839200093_1_alg».proof.Proof.Gen.ReferenceIdeal.Run
import proofs.«174743_j72335839200093_1_alg».proof.Proof.Gen.ReferenceIdeal.Read
import proofs.«174743_j72335839200093_1_alg».proof.Proof.FeatureRef
import proofs.«174743_j72335839200093_1_alg».proof.Proof.FeatureHost
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From arguments that agree, the kernel's result (the feature map of its arguments, by the blocks' cover and the two
    reshapes) and the reference's (the feature map of its arguments, stage by stage) are equal entry by entry. -/
theorem algebraic : Cert.algebraic_KernelIdeal_ReferenceIdeal := by
  intro m ρ m' ρ' _ hagree
  refine ⟨fun c => Cert.FeatureMap.feat (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.Host.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.ref_is_feat, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
